-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4096x1024 : Shape := ⟨2, ![4096, 1024]⟩
abbrev S16x4096 : Shape := ⟨2, ![16, 4096]⟩
abbrev S16 : Shape := ⟨1, ![16]⟩
abbrev S4096x16 : Shape := ⟨2, ![4096, 16]⟩
abbrev S1024x4096 : Shape := ⟨2, ![1024, 4096]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S16x4096 : S_.BroadcastsInDim S16x4096 (![] : Fin 0 → Fin S16x4096.rank)
  reducesTo_S16x4096_S_d0_1 : S16x4096.ReducesTo [0, 1] S_
  bcast_S_S16 : S_.BroadcastsInDim S16 (![] : Fin 0 → Fin S16.rank)
  reducesTo_S16_S_d0 : S16.ReducesTo [0] S_
  bcast_S_S4096x16 : S_.BroadcastsInDim S4096x16 (![] : Fin 0 → Fin S4096x16.rank)
  reducesTo_S4096x16_S_d0_1 : S4096x16.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg4 : FVec F S4096x16 .f32) (main_arg5 : FVec F S1024x4096 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  main_v28

def fn {F : FTy → Type} [FloatOps F] (main_arg0 : FVec F S4x2048x1024 .f32) (main_arg1 : FVec F S4096x1024 .f32) (main_arg2 : FVec F S16x4096 .f32) (main_arg3 : FVec F S16 .f32) (main_arg4 : FVec F S4096x16 .f32) (main_arg5 : FVec F S1024x4096 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S4x2048x1024 : Shape := ⟨3, ![4, 2048, 1024]⟩
abbrev S4096x1024 : Shape := ⟨2, ![4096, 1024]⟩
abbrev S16x4096 : Shape := ⟨2, ![16, 4096]⟩
abbrev S16 : Shape := ⟨1, ![16]⟩
abbrev S4096x16 : Shape := ⟨2, ![4096, 16]⟩
abbrev S1024x4096 : Shape := ⟨2, ![1024, 4096]⟩
abbrev S8192x1024 : Shape := ⟨2, ![8192, 1024]⟩
abbrev S1x16 : Shape := ⟨2, ![1, 16]⟩
abbrev S256x1024 : Shape := ⟨2, ![256, 1024]⟩
abbrev S256x4096 : Shape := ⟨2, ![256, 4096]⟩
abbrev S256x16 : Shape := ⟨2, ![256, 16]⟩

abbrev nBuf : Space → Nat
  | .hbm => 14
  | .vmem => 9
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S16x4096, .f32⟩
  | .hbm, ⟨3, _⟩ => ⟨S16, .f32⟩
  | .hbm, ⟨4, _⟩ => ⟨S4096x16, .f32⟩
  | .hbm, ⟨5, _⟩ => ⟨S1024x4096, .f32⟩
  | .hbm, ⟨6, _⟩ => ⟨S8192x1024, .f32⟩
  | .hbm, ⟨7, _⟩ => ⟨S1x16, .f32⟩
  | .hbm, ⟨8, _⟩ => ⟨S4096x1024, .bf16⟩
  | .hbm, ⟨9, _⟩ => ⟨S16x4096, .bf16⟩
  | .hbm, ⟨10, _⟩ => ⟨S4096x16, .bf16⟩
  | .hbm, ⟨11, _⟩ => ⟨S1024x4096, .bf16⟩
  | .hbm, ⟨12, _⟩ => ⟨S8192x1024, .f32⟩
  | .hbm, ⟨13, _⟩ => ⟨S4x2048x1024, .f32⟩
  | .local _ .vmem, ⟨0, _⟩ => ⟨S256x1024, .f32⟩
  | .local _ .vmem, ⟨1, _⟩ => ⟨S256x1024, .f32⟩
  | .local _ .vmem, ⟨2, _⟩ => ⟨S4096x1024, .bf16⟩
  | .local _ .vmem, ⟨3, _⟩ => ⟨S16x4096, .bf16⟩
  | .local _ .vmem, ⟨4, _⟩ => ⟨S1x16, .f32⟩
  | .local _ .vmem, ⟨5, _⟩ => ⟨S4096x16, .bf16⟩
  | .local _ .vmem, ⟨6, _⟩ => ⟨S1024x4096, .bf16⟩
  | .local _ .vmem, ⟨7, _⟩ => ⟨S256x1024, .f32⟩
  | .local _ .vmem, ⟨8, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x2048x1024_S8192x1024 : S4x2048x1024.ShapeCasts S8192x1024
  shapeCasts_S16_S1x16 : S16.ShapeCasts S1x16
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S256x16 : S1x16.Broadcasts S256x16
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  shapeCasts_S8192x1024_S4x2048x1024 : S8192x1024.ShapeCasts S4x2048x1024
  dot_S256x1024_S4096x1024_S256x4096_1_1_0_0_n_n_wf : DotDims.WF S256x1024 S4096x1024 S256x4096 [1] [1] [0] [0] [] []
  dot_S256x4096_S16x4096_S256x16_1_1_0_0_n_n_wf : DotDims.WF S256x4096 S16x4096 S256x16 [1] [1] [0] [0] [] []
  dot_S256x16_S4096x16_S256x4096_1_1_0_0_n_n_wf : DotDims.WF S256x16 S4096x16 S256x4096 [1] [1] [0] [0] [] []
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .bf16 = 32 ∨ (Rect.block (s := S16x4096) S16x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x16.size a ≤ S4096x16.size a
  hwx0_4 : ∀ i : grid0.Coords, EltTy.bits .bf16 = 32 ∨ (Rect.block (s := S4096x16) S4096x16.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x4096_S16x4096_S256x16_1_1_0_0_n_n : DotDims S256x4096 S16x4096 S256x16 where
  lhsContracting := [1]
  rhsContracting := [1]
  lhsNonContracting := [0]
  rhsNonContracting := [0]
  lhsBatch := []
  rhsBatch := []
  wf := dot_S256x4096_S16x4096_S256x16_1_1_0_0_n_n_wf
def dot_S256x16_S4096x16_S256x4096_1_1_0_0_n_n : DotDims S256x16 S4096x16 S256x4096 where
  lhsContracting := [1]
  rhsContracting := [1]
  lhsNonContracting := [0]
  rhsNonContracting := [0]
  lhsBatch := []
  rhsBatch := []
  wf := dot_S256x16_S4096x16_S256x4096_1_1_0_0_n_n_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4096x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S4096x1024 : Shape := ⟨2, ![4096, 1024]⟩
abbrev S16x4096 : Shape := ⟨2, ![16, 4096]⟩
abbrev S16 : Shape := ⟨1, ![16]⟩
abbrev S4096x16 : Shape := ⟨2, ![4096, 16]⟩
abbrev S1024x4096 : Shape := ⟨2, ![1024, 4096]⟩
abbrev S4x2048x4096 : Shape := ⟨3, ![4, 2048, 4096]⟩
abbrev S4x2048x16 : Shape := ⟨3, ![4, 2048, 16]⟩
abbrev S1x1x16 : Shape := ⟨3, ![1, 1, 16]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S16x4096, .f32⟩
  | .hbm, ⟨3, _⟩ => ⟨S16, .f32⟩
  | .hbm, ⟨4, _⟩ => ⟨S4096x16, .f32⟩
  | .hbm, ⟨5, _⟩ => ⟨S1024x4096, .f32⟩
  | .hbm, ⟨6, _⟩ => ⟨S4x2048x4096, .f32⟩
  | .hbm, ⟨7, _⟩ => ⟨S4x2048x16, .f32⟩
  | .hbm, ⟨8, _⟩ => ⟨S1x1x16, .f32⟩
  | .hbm, ⟨9, _⟩ => ⟨S4x2048x16, .f32⟩
  | .hbm, ⟨10, _⟩ => ⟨S4x2048x16, .f32⟩
  | .hbm, ⟨11, _⟩ => ⟨S4x2048x16, .f32⟩
  | .hbm, ⟨12, _⟩ => ⟨S4x2048x4096, .f32⟩
  | .hbm, ⟨13, _⟩ => ⟨S_, .f32⟩
  | .hbm, ⟨14, _⟩ => ⟨S4x2048x4096, .f32⟩
  | .hbm, ⟨15, _⟩ => ⟨S4x2048x4096, .f32⟩
  | .hbm, ⟨16, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  bcast_S16_S1x1x16_2 : S16.BroadcastsInDim S1x1x16 (![2] : Fin 1 → Fin S1x1x16.rank)
  bcast_S1x1x16_S4x2048x16_0_1_2 : S1x1x16.BroadcastsInDim S4x2048x16 (![0, 1, 2] : Fin 3 → Fin S4x2048x16.rank)
  bcast_S_S4x2048x4096 : S_.BroadcastsInDim S4x2048x4096 (![] : Fin 0 → Fin S4x2048x4096.rank)
  dot_S4x2048x1024_S4096x1024_S4x2048x4096_2_1_01_0_n_n_wf : DotDims.WF S4x2048x1024 S4096x1024 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []
  dot_S4x2048x4096_S1024x4096_S4x2048x1024_2_1_01_0_n_n_wf : DotDims.WF S4x2048x4096 S1024x4096 S4x2048x1024 [2] [1] [0, 1] [0] [] []

variable [Facts₀]

def dot_S4x2048x1024_S4096x1024_S4x2048x4096_2_1_01_0_n_n : DotDims S4x2048x1024 S4096x1024 S4x2048x4096 where
  lhsContracting := [2]
  rhsContracting := [1]
  lhsNonContracting := [0, 1]
  rhsNonContracting := [0]
  lhsBatch := []
  rhsBatch := []
  wf := dot_S4x2048x1024_S4096x1024_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf
def dot_S4x2048x4096_S1024x4096_S4x2048x1024_2_1_01_0_n_n : DotDims S4x2048x4096 S1024x4096 S4x2048x1024 where
  lhsContracting := [2]
  rhsContracting := [1]
  lhsNonContracting := [0, 1]
  rhsNonContracting := [0]
  lhsBatch := []
  rhsBatch := []
  wf := dot_S4x2048x4096_S1024x4096_S4x2048x1024_2_1_01_0_n_n_wf

class Facts : Prop extends Facts₀ where

variable [Facts]
-- ==== Proof.Spec.lean ====
/-
  The function both programs compute, one row at a time.

  A row `xr` of 1024 entries goes through four linear maps with a cosine and a rectifier between them:
    hidden f  = Σ_e xr e · W1 f e                       (1024 → 4096)
    angle k   = Σ_f hidden f · Wq k f                   (4096 → 16)
    expect k  = cos (angle k + θ k)
    lifted f  = max (Σ_k expect k · W2 f k) 0           (16 → 4096)
    outRow e  = Σ_f lifted f · Wo e f                   (4096 → 1024)
  over the extended reals. Every weight matrix is contracted along its SECOND axis, as the sources write it
  (`te,fe->tf` and its three siblings). The zero under the maximum is kept as the f32 word both programs spell.
-/
import Idealize.ShloMosaic.PureOps.Ideal

noncomputable section

namespace Cert.QuantumFFN

open Idealize.ShloMosaic

/-- The first linear layer on one row. -/
def hidden (xr : Fin 1024 → EReal) (W1 : Fin 4096 → Fin 1024 → EReal) (f : Fin 4096) : EReal :=
  ∑ e : Fin 1024, xr e * W1 f e

/-- The sixteen rotation angles of the row. -/
def angle (xr : Fin 1024 → EReal) (W1 : Fin 4096 → Fin 1024 → EReal) (Wq : Fin 16 → Fin 4096 → EReal) (k : Fin 16) : EReal :=
  ∑ f : Fin 4096, hidden xr W1 f * Wq k f

/-- The expectation on wire `k`: the cosine of the angle shifted by the wire's trained phase. -/
def expect (xr : Fin 1024 → EReal) (W1 : Fin 4096 → Fin 1024 → EReal) (Wq : Fin 16 → Fin 4096 → EReal) (th : Fin 16 → EReal)
    (k : Fin 16) : EReal :=
  Ideal.cos (angle xr W1 Wq k + th k)

/-- The second linear layer, rectified. -/
def lifted (xr : Fin 1024 → EReal) (W1 : Fin 4096 → Fin 1024 → EReal) (Wq : Fin 16 → Fin 4096 → EReal) (th : Fin 16 → EReal)
    (W2 : Fin 4096 → Fin 16 → EReal) (f : Fin 4096) : EReal :=
  max (∑ k : Fin 16, expect xr W1 Wq th k * W2 f k) (Ideal.ofBits .f32 0x00000000#32)

/-- The output projection: entry `e` of the row's result. -/
def outRow (xr : Fin 1024 → EReal) (W1 : Fin 4096 → Fin 1024 → EReal) (Wq : Fin 16 → Fin 4096 → EReal) (th : Fin 16 → EReal)
    (W2 : Fin 4096 → Fin 16 → EReal) (Wo : Fin 1024 → Fin 4096 → EReal) (e : Fin 1024) : EReal :=
  ∑ f : Fin 4096, lifted xr W1 Wq th W2 f * Wo e f

end Cert.QuantumFFN

end
-- ==== Proof.LibTransposedRhs.lean ====
/-
  A matrix product whose RIGHT operand is contracted along its second axis (`DotDims.transposedRhs M K N`: an M×K
  matrix times the transpose of an N×K matrix, what `einsum('mk,nk->mn')` lowers to), read at one entry at the ideal
  values: into the zero accumulator a `tpu.matmul` is the plain sum over the contracted coordinate of the products of
  the two rows' entries,
      (A · Bᵀ)(a, b) = Σ_c A(a, c) · B(b, c).
  Namespace `Cert.TransposedRhs`; imports only the library.
-/
import Idealize.ShloMosaic.Lib.ValueIdx
import Idealize.ShloMosaic.PureOps.Ideal.Laws

noncomputable section

namespace Cert.TransposedRhs

open Idealize.ShloMosaic Idealize.ShloMosaic.ValueIdx

variable {M K N : Nat}

/-- The left operand's index at output entry (a, b) and contracted coordinate c is (a, c). -/
theorem lhsIdx_eq (a : Fin M) (b : Fin N) (c : Fin K) :
    (DotDims.transposedRhs M K N).lhsIdx (ix2 a b) ((contrEquiv1 (DotDims.transposedRhs M K N) K rfl rfl).symm c) = ix2 a c := by
  have hc := contrEquiv1_symm_val (DotDims.transposedRhs M K N) K rfl rfl c
  funext ax; apply Fin.ext
  match ax with
  | ⟨0, _⟩ => simp [DotDims.lhsIdx, DotDims.transposedRhs]; rfl
  | ⟨1, _⟩ => simp [DotDims.lhsIdx, DotDims.transposedRhs]; exact hc

/-- The right operand's index there is (b, c): its second axis is the contracted one. -/
theorem rhsIdx_eq (a : Fin M) (b : Fin N) (c : Fin K) :
    (DotDims.transposedRhs M K N).rhsIdx (ix2 a b) ((contrEquiv1 (DotDims.transposedRhs M K N) K rfl rfl).symm c) = ix2 b c := by
  have hc := contrEquiv1_symm_val (DotDims.transposedRhs M K N) K rfl rfl c
  funext ax; apply Fin.ext
  match ax with
  | ⟨0, _⟩ => simp [DotDims.rhsIdx, DotDims.transposedRhs]; rfl
  | ⟨1, _⟩ => simp [DotDims.rhsIdx, DotDims.transposedRhs]; exact hc

/-- A `tpu.matmul` with the right operand contracted along its second axis, into the zero accumulator, read at
    entry (a, b): the sum over c of A(a, c) · B(b, c). -/
theorem matmul_zero_apply {φ₁ φ₂ : FTy} (prec : Option ContractPrecision)
    (A : FVec Ideal ⟨2, ![M, K]⟩ φ₁) (B : FVec Ideal ⟨2, ![N, K]⟩ φ₂) (a : Fin M) (b : Fin N) :
    FloatOps.matmul (DotDims.transposedRhs M K N) prec A B (constant ⟨2, ![M, N]⟩ .f32 0x00000000#32) (ix2 a b)
      = ∑ c : Fin K, A (ix2 a c) * B (ix2 b c) := by
  rw [Ideal.matmul_constant_zero_apply, ← Equiv.sum_comp (contrEquiv1 (DotDims.transposedRhs M K N) K rfl rfl).symm]
  refine Finset.sum_congr rfl fun c _ => ?_
  rw [lhsIdx_eq, rhsIdx_eq]

end Cert.TransposedRhs

end
-- ==== Proof.KernelTile.lean ====
/-
  One tile of the kernel: the value the body stores, read at entry (p, e) of the 256×1024 tile, is the row
  function `outRow` of row p of the tile's input block and of the five resident operands.
-/
import proofs.«103433_j65481071396892_1_alg».proof.Proof.Gen.KernelIdeal.Skeleton
import proofs.«103433_j65481071396892_1_alg».proof.Proof.Spec
import proofs.«103433_j65481071396892_1_alg».proof.Proof.LibTransposedRhs
import Idealize.ShloMosaic.Lib.Pipeline.Value
import Idealize.ShloMosaic.Lib.ValueIdx
import Idealize.ShloMosaic.PureOps.Ideal.Laws

noncomputable section

namespace Cert.KernelIdeal.Tile

open Idealize.ShloMosaic Idealize.ShloMosaic.TcCoe Idealize.ShloMosaic.ValueIdx
open Cert.KernelIdeal Cert.KernelIdeal.Gen Cert.QuantumFFN

/-! The four product records of the kernel contract the second axis of both operands: each is the library's
    record for a product with a transposed right operand. -/

theorem dot1_eq : dot_S256x1024_S4096x1024_S256x4096_1_1_0_0_n_n = DotDims.transposedRhs 256 1024 4096 := rfl
theorem dot2_eq : dot_S256x4096_S16x4096_S256x16_1_1_0_0_n_n = DotDims.transposedRhs 256 4096 16 := rfl
theorem dot3_eq : dot_S256x16_S4096x16_S256x4096_1_1_0_0_n_n = DotDims.transposedRhs 256 16 4096 := rfl
theorem dot4_eq : dot_S256x4096_S1024x4096_S256x1024_1_1_0_0_n_n = DotDims.transposedRhs 256 4096 1024 := rfl

/-- The first product into the zero accumulator, at entry (p, f): Σ_e A(p, e) · B(f, e). -/
theorem mm1_apply (A : FVec Ideal S256x1024 .bf16) (B : FVec Ideal S4096x1024 .bf16) (p : Fin 256) (f : Fin 4096) :
    matmul dot_S256x1024_S4096x1024_S256x4096_1_1_0_0_n_n none A B (constant S256x4096 .f32 0x00000000#32) (ix2 p f)
      = ∑ e : Fin 1024, A (ix2 p e) * B (ix2 f e) := by
  rw [dot1_eq]; exact Cert.TransposedRhs.matmul_zero_apply none A B p f

/-- The second product, at entry (p, k): Σ_f A(p, f) · B(k, f). -/
theorem mm2_apply (A : FVec Ideal S256x4096 .bf16) (B : FVec Ideal S16x4096 .bf16) (p : Fin 256) (k : Fin 16) :
    matmul dot_S256x4096_S16x4096_S256x16_1_1_0_0_n_n none A B (constant S256x16 .f32 0x00000000#32) (ix2 p k)
      = ∑ f : Fin 4096, A (ix2 p f) * B (ix2 k f) := by
  rw [dot2_eq]; exact Cert.TransposedRhs.matmul_zero_apply none A B p k

/-- The third product, at entry (p, f): Σ_k A(p, k) · B(f, k). -/
theorem mm3_apply (A : FVec Ideal S256x16 .bf16) (B : FVec Ideal S4096x16 .bf16) (p : Fin 256) (f : Fin 4096) :
    matmul dot_S256x16_S4096x16_S256x4096_1_1_0_0_n_n none A B (constant S256x4096 .f32 0x00000000#32) (ix2 p f)
      = ∑ k : Fin 16, A (ix2 p k) * B (ix2 f k) := by
  rw [dot3_eq]; exact Cert.TransposedRhs.matmul_zero_apply none A B p f

/-- The fourth product, at entry (p, e): Σ_f A(p, f) · B(e, f). -/
theorem mm4_apply (A : FVec Ideal S256x4096 .bf16) (B : FVec Ideal S1024x4096 .bf16) (p : Fin 256) (e : Fin 1024) :
    matmul dot_S256x4096_S1024x4096_S256x1024_1_1_0_0_n_n none A B (constant S256x1024 .f32 0x00000000#32) (ix2 p e)
      = ∑ f : Fin 4096, A (ix2 p f) * B (ix2 e f) := by
  rw [dot4_eq]; exact Cert.TransposedRhs.matmul_zero_apply none A B p e

/-- The phase row [1,16] broadcast down the 256 rows, read at (p, k), is the row's entry k. -/
theorem phase_apply (th : FVec Ideal S1x16 .f32) (h : S1x16.Broadcasts S256x16) (p : Fin 256) (k : Fin 16) :
    broadcastTo S256x16 th h (ix2 p k) = th (ix2 0 k) := by
  refine broadcastTo_apply th h (ix2 p k) (ix2 0 k) fun a => ?_
  match a with
  | ⟨0, _⟩ => rfl
  | ⟨1, _⟩ => rfl

/-- The body's stored value at (p, e): the four products, the cosine and the rectifier opened from the outside in. -/
theorem pay_apply (v0 : Vec Ideal S256x1024 .f32) (v3 : Vec Ideal S4096x1024 .bf16) (v7 : Vec Ideal S16x4096 .bf16)
    (v10 : Vec Ideal S1x16 .f32) (v16 : Vec Ideal S4096x16 .bf16) (v22 : Vec Ideal S1024x4096 .bf16) (p : Fin 256) (e : Fin 1024) :
    k0_pay1 (F := Ideal) v0 v3 v7 v10 v16 v22 (ix2 p e)
      = outRow (fun e' => v0 (ix2 p e')) (fun f e' => v3 (ix2 f e')) (fun k f => v7 (ix2 k f)) (fun k => v10 (ix2 0 k))
          (fun f k => v16 (ix2 f k)) (fun e' f => v22 (ix2 e' f)) e := by
  unfold k0_pay1
  simp only [shapeCast_self]
  -- the output projection: Σ_f lifted f · Wo e f
  refine (mm4_apply _ _ p e).trans ?_
  refine Finset.sum_congr rfl fun f _ => ?_
  refine congrArg (· * v22 (ix2 e f)) ?_
  -- the rectifier: the maximum with the splat zero, entry by entry
  rw [truncf_apply, maximumf_apply, broadcast_apply]
  refine congrArg (max · (Ideal.ofBits .f32 0x00000000#32)) ?_
  -- the second linear layer: Σ_k expect k · W2 f k
  refine (mm3_apply _ _ p f).trans ?_
  refine Finset.sum_congr rfl fun k _ => ?_
  refine congrArg (· * v16 (ix2 f k)) ?_
  -- the cosine of the angle shifted by the phase of wire k
  rw [truncf_apply]
  refine congrArg Ideal.cos ?_
  rw [addf_apply, phase_apply]
  refine congrArg (· + v10 (ix2 0 k)) ?_
  -- the angle: Σ_f hidden f · Wq k f
  refine (mm2_apply _ _ p k).trans ?_
  refine Finset.sum_congr rfl fun f' _ => ?_
  refine congrArg (· * v7 (ix2 k f')) ?_
  -- the first linear layer: Σ_e x e · W1 f e
  rw [truncf_apply]
  exact mm1_apply _ _ p f'

end Cert.KernelIdeal.Tile

end
-- ==== Proof.SpecWhole.lean ====
/-
  The whole result: entry (b, s, e) of the [4, 2048, 1024] output is `outRow` of row (b, s) of x, at e — as one
  function of the six argument arrays.
-/
import proofs.«103433_j65481071396892_1_alg».proof.Proof.Spec
import Idealize.ShloMosaic.Lib.ValueIdx

noncomputable section

namespace Cert.QuantumFFN

open Idealize.ShloMosaic Idealize.ShloMosaic.ValueIdx

/-- The result array of the layer as one function of x, W1, Wq, θ, W2 and Wo. -/
def whole (x : (⟨3, ![4, 2048, 1024]⟩ : Shape).Idx → EReal) (W1 : (⟨2, ![4096, 1024]⟩ : Shape).Idx → EReal)
    (Wq : (⟨2, ![16, 4096]⟩ : Shape).Idx → EReal) (th : (⟨1, ![16]⟩ : Shape).Idx → EReal)
    (W2 : (⟨2, ![4096, 16]⟩ : Shape).Idx → EReal) (Wo : (⟨2, ![1024, 4096]⟩ : Shape).Idx → EReal) :
    (⟨3, ![4, 2048, 1024]⟩ : Shape).Idx → EReal :=
  fun i => outRow (fun e' => x (ix3 (i 0) (i 1) e')) (fun f e' => W1 (ix2 f e')) (fun k f => Wq (ix2 k f)) (fun k => th (ix1 k))
    (fun f k => W2 (ix2 f k)) (fun e' f => Wo (ix2 e' f)) (i 2)

end Cert.QuantumFFN

end
-- ==== Proof.KernelArray.lean ====
/-
  From tiles to the array, and through the reshapes around the call.

  The program flattens x[4, 2048, 1024] to 8192 rows (row r = 2048·b + s is row (b, s)), writes θ as a one-row matrix,
  narrows the four weights to bf16 (the identity at the ideal values), calls the kernel on 32 grid points and reshapes
  the [8192, 1024] output back. Point t is handed rows 256·t … 256·t + 255 of the flattened x and the whole of every
  other operand, and writes the same rows of the output. So the output array is ONE function of the arrays the call is
  handed — row r of it is `outRow` of row r of the flattened x (`G6`) —: what point t writes back is block t of that
  function (`flushed_eq`, over the tile lemma), the 32 blocks cover the 8192 rows (`cover`: row r lies in block
  r / 256), hence the array after the run is `G6` (`final`). Undoing the two reshapes, entry (b, s, e) of the result
  is `outRow` of row (b, s) of x: `whole` of the six arguments (`result_eq`, `run`).
-/
import proofs.«103433_j65481071396892_1_alg».proof.Proof.Gen.KernelIdeal.Frame
import proofs.«103433_j65481071396892_1_alg».proof.Proof.KernelTile
import proofs.«103433_j65481071396892_1_alg».proof.Proof.SpecWhole
import Idealize.ShloMosaic.Lib.Pipeline.Value
import Idealize.ShloMosaic.Lib.ValueIdx
import Idealize.ShloMosaic.Lib.StableHlo.Run

set_option maxRecDepth 16384

noncomputable section

namespace Cert.KernelIdeal.Whole

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.QuantumFFN

variable (m : (ℓ : Loc nD τ sig) → Buf (Elt Ideal) ℓ) (ρ : Dev nD → PrngReg)

/-! ## The arrays the call is handed -/

/-- The call's first operand is x flattened to 8192 rows. -/
theorem V_rows (c : Dev nD) : (V m c main_v0 : S8192x1024.Idx → EReal)
    = shapeCast S8192x1024 (m ((c : Thread nD τ).loc main_arg0)) shapeCasts_S4x2048x1024_S8192x1024 := by
  show StableHlo.after hostOps0 (fun b => m (c, b)) (Proc.devRef .tc main_v0) = _
  after_results
  rfl

/-- Its fourth operand is θ as a one-row matrix. -/
theorem V_theta (c : Dev nD) : (V m c main_v1 : S1x16.Idx → EReal)
    = shapeCast S1x16 (m ((c : Thread nD τ).loc main_arg3)) shapeCasts_S16_S1x16 := by
  show StableHlo.after hostOps0 (fun b => m (c, b)) (Proc.devRef .tc main_v1) = _
  after_results
  rfl

/-- The four weights are narrowed to bf16 before the call: at the ideal values, unchanged. -/
theorem V_W1 (c : Dev nD) : (V m c main_v2 : S4096x1024.Idx → EReal) = m ((c : Thread nD τ).loc main_arg1) := by
  show StableHlo.after hostOps0 (fun b => m (c, b)) (Proc.devRef .tc main_v2) = _
  after_results
  rfl

theorem V_Wq (c : Dev nD) : (V m c main_v3 : S16x4096.Idx → EReal) = m ((c : Thread nD τ).loc main_arg2) := by
  show StableHlo.after hostOps0 (fun b => m (c, b)) (Proc.devRef .tc main_v3) = _
  after_results
  rfl

theorem V_W2 (c : Dev nD) : (V m c main_v4 : S4096x16.Idx → EReal) = m ((c : Thread nD τ).loc main_arg4) := by
  show StableHlo.after hostOps0 (fun b => m (c, b)) (Proc.devRef .tc main_v4) = _
  after_results
  rfl

theorem V_Wo (c : Dev nD) : (V m c main_v5 : S1024x4096.Idx → EReal) = m ((c : Thread nD τ).loc main_arg5) := by
  show StableHlo.after hostOps0 (fun b => m (c, b)) (Proc.devRef .tc main_v5) = _
  after_results
  rfl

/-! ## One tile is a block of one whole-array function -/

/-- The call's output array as one function of the arrays it is handed: row r of the output is `outRow` of row r of the
    flattened x. -/
def G6 (c : Dev nD) : S8192x1024.Idx → EReal := fun i =>
  outRow (fun e' => V m c main_v0 (ix2 (i 0) e')) (fun f e' => V m c main_v2 (ix2 f e')) (fun k f => V m c main_v3 (ix2 k f))
    (fun k => V m c main_v1 (ix2 0 k)) (fun f k => V m c main_v4 (ix2 f k)) (fun e' f => V m c main_v5 (ix2 e' f)) (i 1)

/-- The body's one store starts at the tile's corner. -/
theorem hz : (![0, 0] : Fin 2 → Nat) = fun _ => 0 := funext fun a => by fin_cases a <;> rfl

/-- Over the 32 points: the x window and the output window sit on row block t, every other window on its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of `G6`: the tile lemma at each entry, then each input block read where
    the output's block says — the x block on the same rows, every other operand whole. -/
theorem flushed_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  unfold out0_6
  rw [View.canon_unit_zero hz]
  simp only [View.ld_unit_zero (S := S256x1024) hz, View.ld_unit_zero (S := S4096x1024) hz, View.ld_unit_zero (S := S16x4096) hz,
    View.ld_unit_zero (S := S1x16) hz, View.ld_unit_zero (S := S4096x16) hz, View.ld_unit_zero (S := S1024x4096) hz]
  funext j
  obtain ⟨p, e, rfl⟩ : ∃ (p : Fin 256) (e : Fin 1024), j = ix2 p e := ⟨j 0, j 1, eq_ix2 j⟩
  obtain ⟨e00, e01, e10, e11, e20, e21, e30, e31, e40, e41, e50, e51, e60, e61⟩ := idx_facts t
  show k0_pay1 (F := Ideal) (iblk m c 0 t) (iblk m c 1 t) (iblk m c 2 t) (iblk m c 3 t) (iblk m c 4 t) (iblk m c 5 t) (ix2 p e)
    = G6 m c (((cfg0.win 6).blk t).view.emb (ix2 p e))
  refine (Tile.pay_apply (iblk m c 0 t) (iblk m c 1 t) (iblk m c 2 t) (iblk m c 3 t) (iblk m c 4 t) (iblk m c 5 t) p e).trans ?_
  unfold G6
  have hcol : ((cfg0.win 6).blk t).view.emb (ix2 p e) 1 = e :=
    Fin.ext (by show win0_6.index t (1 : Fin 2) * 1024 + 1 * e.val = e.val; omega)
  have h0 : (fun e' : Fin 1024 => iblk m c 0 t (ix2 p e'))
      = fun e' => V m c main_v0 (ix2 (((cfg0.win 6).blk t).view.emb (ix2 p e) 0) e') := funext fun e' => by
    show V m c main_v0 (((cfg0.win 0).blk t).view.emb (ix2 p e')) = _
    refine congrArg _ (funext fun a => Fin.ext ?_)
    match a with
    | ⟨0, _⟩ => show win0_0.index t (0 : Fin 2) * 256 + 1 * p.val = win0_6.index t (0 : Fin 2) * 256 + 1 * p.val; omega
    | ⟨1, _⟩ => show win0_0.index t (1 : Fin 2) * 1024 + 1 * e'.val = e'.val; omega
  have h1 : (fun (f : Fin 4096) (e' : Fin 1024) => iblk m c 1 t (ix2 f e')) = fun f e' => V m c main_v2 (ix2 f e') :=
    funext fun f => funext fun e' => by
    show V m c main_v2 (((cfg0.win 1).blk t).view.emb (ix2 f e')) = _
    refine congrArg _ (funext fun a => Fin.ext ?_)
    match a with
    | ⟨0, _⟩ => show win0_1.index t (0 : Fin 2) * 4096 + 1 * f.val = f.val; omega
    | ⟨1, _⟩ => show win0_1.index t (1 : Fin 2) * 1024 + 1 * e'.val = e'.val; omega
  have h2 : (fun (k : Fin 16) (f : Fin 4096) => iblk m c 2 t (ix2 k f)) = fun k f => V m c main_v3 (ix2 k f) :=
    funext fun k => funext fun f => by
    show V m c main_v3 (((cfg0.win 2).blk t).view.emb (ix2 k f)) = _
    refine congrArg _ (funext fun a => Fin.ext ?_)
    match a with
    | ⟨0, _⟩ => show win0_2.index t (0 : Fin 2) * 16 + 1 * k.val = k.val; omega
    | ⟨1, _⟩ => show win0_2.index t (1 : Fin 2) * 4096 + 1 * f.val = f.val; omega
  have h3 : (fun (k : Fin 16) => iblk m c 3 t (ix2 0 k)) = fun k => V m c main_v1 (ix2 0 k) :=
    funext fun k => by
    show V m c main_v1 (((cfg0.win 3).blk t).view.emb (ix2 0 k)) = _
    refine congrArg _ (funext fun a => Fin.ext ?_)
    match a with
    | ⟨0, _⟩ => show win0_3.index t (0 : Fin 2) * 1 + 1 * 0 = 0; omega
    | ⟨1, _⟩ => show win0_3.index t (1 : Fin 2) * 16 + 1 * k.val = k.val; omega
  have h4 : (fun (f : Fin 4096) (k : Fin 16) => iblk m c 4 t (ix2 f k)) = fun f k => V m c main_v4 (ix2 f k) :=
    funext fun f => funext fun k => by
    show V m c main_v4 (((cfg0.win 4).blk t).view.emb (ix2 f k)) = _
    refine congrArg _ (funext fun a => Fin.ext ?_)
    match a with
    | ⟨0, _⟩ => show win0_4.index t (0 : Fin 2) * 4096 + 1 * f.val = f.val; omega
    | ⟨1, _⟩ => show win0_4.index t (1 : Fin 2) * 16 + 1 * k.val = k.val; omega
  have h5 : (fun (e' : Fin 1024) (f : Fin 4096) => iblk m c 5 t (ix2 e' f)) = fun e' f => V m c main_v5 (ix2 e' f) :=
    funext fun e' => funext fun f => by
    show V m c main_v5 (((cfg0.win 5).blk t).view.emb (ix2 e' f)) = _
    refine congrArg _ (funext fun a => Fin.ext ?_)
    match a with
    | ⟨0, _⟩ => show win0_5.index t (0 : Fin 2) * 1024 + 1 * e'.val = e'.val; omega
    | ⟨1, _⟩ => show win0_5.index t (1 : Fin 2) * 4096 + 1 * f.val = f.val; omega
  rw [h0, h1, h2, h3, h4, h5, hcol]

/-! ## The tiles cover the array -/

/-- An index of the output array is in point `t`'s block iff each coordinate is in the block's range on its axis. -/
theorem mem_blk (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v6).slice (win0_6.rect t)).set ↔ _
  rw [View.set_slice_whole, Rect.mem_set_unit]
  exact Iff.rfl

/-- Row r of the output lies in the tile of point r / 256. -/
theorem cover (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 32 := N_0
  refine ⟨⟨(i 0).val / 256, by rw [hN]; omega⟩, flush0_6 _, ?_⟩
  obtain ⟨-, -, -, -, -, -, -, -, -, -, -, -, e60, e61⟩ := idx_facts ⟨(i 0).val / 256, by rw [hN]; omega⟩
  rw [mem_blk]
  intro a
  match a with
  | ⟨0, _⟩ => show win0_6.index _ (0 : Fin 2) * 256 ≤ (i 0).val ∧ (i 0).val < win0_6.index _ (0 : Fin 2) * 256 + 256; rw [e60]; show (i 0).val / 256 * 256 ≤ (i 0).val ∧ (i 0).val < (i 0).val / 256 * 256 + 256; omega
  | ⟨1, _⟩ => show win0_6.index _ (1 : Fin 2) * 1024 ≤ (i 1).val ∧ (i 1).val < win0_6.index _ (1 : Fin 2) * 1024 + 1024; rw [e61]; omega

/-- The output array after the run. -/
theorem final (c : Dev nD) : (dats m 0 c).arrAt 6 cfg0.N = G6 m c :=
  (dats m 0 c).arrAt_eq_of_cover 6 (G6 m c) (fun t _ => flushed_eq m c t) cover

/-! ## The reshape after the call, and the result as one function of the arguments -/

/-- What the line after the call leaves in the result buffer: the output array, reshaped. -/
theorem tail_result (c : Dev nD) :
    Pipeline.afterTail₀ cfgs (dats m) 0 (V0 m) [hostOps1] c main_v7
      = shapeCast S4x2048x1024 (G6 m c) shapeCasts_S8192x1024_S4x2048x1024 := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6)
      = G6 m c :=
    (Pipeline.withArrays_arr spec0 launch0.win.arr_inj c _ _ 6).trans (final m c)
  rw [hw]
  rfl

/-- Row b·2048 + s of the flattened x is row (b, s) of x. -/
theorem rows_apply (x : S4x2048x1024.Idx → EReal) (b : Fin 4) (s : Fin 2048) (e' : Fin 1024) (hr : b.val * 2048 + s.val < 8192) :
    shapeCast S8192x1024 x shapeCasts_S4x2048x1024_S8192x1024 (ix2 ⟨b.val * 2048 + s.val, hr⟩ e') = x (ix3 b s e') := by
  refine shapeCast_apply x shapeCasts_S4x2048x1024_S8192x1024 _ (ix3 b s e') ?_
  rw [Shape.rowMajor_val_three, Shape.rowMajor_val_two]
  show (b.val * 2048 + s.val) * 1024 + e'.val = (b.val * 2048 + s.val) * 1024 + e'.val
  rfl

/-- The one row of the reshaped θ is θ. -/
theorem theta_apply (th : S16.Idx → EReal) (k : Fin 16) :
    shapeCast S1x16 th shapeCasts_S16_S1x16 (ix2 0 k) = th (ix1 k) := by
  refine shapeCast_apply th shapeCasts_S16_S1x16 _ (ix1 k) ?_
  rw [Shape.rowMajor_val_one, Shape.rowMajor_val_two]
  show k.val = 0 * 16 + k.val
  omega

/-- The program's result is `whole` of its six arguments. -/
theorem result_eq (c : Dev nD) :
    shapeCast S4x2048x1024 (G6 m c) shapeCasts_S8192x1024_S4x2048x1024
      = whole (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  obtain ⟨b, s, e, rfl⟩ : ∃ (b : Fin 4) (s : Fin 2048) (e : Fin 1024), i = ix3 b s e := ⟨i 0, i 1, i 2, eq_ix3 i⟩
  have hb : b.val < 4 := b.isLt
  have hs : s.val < 2048 := s.isLt
  have hr : b.val * 2048 + s.val < 8192 := by omega
  refine (shapeCast_apply (G6 m c) shapeCasts_S8192x1024_S4x2048x1024 (ix3 b s e) (ix2 ⟨b.val * 2048 + s.val, hr⟩ e) ?_).trans ?_
  · rw [Shape.rowMajor_val_two, Shape.rowMajor_val_three]
    show (b.val * 2048 + s.val) * 1024 + e.val = (b.val * 2048 + s.val) * 1024 + e.val
    rfl
  · unfold G6 whole
    rw [V_rows, V_theta, V_W1, V_Wq, V_W2, V_Wo]
    show outRow (fun e' => shapeCast S8192x1024 (m ((c : Thread nD τ).loc main_arg0)) shapeCasts_S4x2048x1024_S8192x1024 (ix2 ⟨b.val * 2048 + s.val, hr⟩ e'))
        _ _ (fun k => shapeCast S1x16 (m ((c : Thread nD τ).loc main_arg3)) shapeCasts_S16_S1x16 (ix2 0 k)) _ _ e = _
    simp only [rows_apply, theta_apply]

/-! ## The run, read -/

/-- Every run of the program ends with the result buffer at `whole` of the arguments, and the arguments as launched. -/
theorem run : θ_run defs (onTc (τ := τ) (main (F := Ideal))) ⟨m, fun _ => 0, ρ⟩ fun r => ∀ c : Dev nD,
      r.2.mem ((c : Thread nD τ).loc main_v7)
        = whole (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v7 (Pipeline.mem_restRefs_of main_v7 (by decide) (by decide))).trans ((tail_result m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Whole

end
-- ==== Proof.RefRow.lean ====
/-
  The reference, one row at a time: its result at (b, s, e) is the row function `outRow` of row (b, s) of x and of
  the five weight arrays.
-/
import proofs.«103433_j65481071396892_1_alg».proof.Proof.Gen.ReferenceIdeal.Read
import proofs.«103433_j65481071396892_1_alg».proof.Proof.Spec
import Idealize.ShloMosaic.Lib.ValueIdx

noncomputable section

namespace Cert.ReferenceIdeal.Row

open Idealize.ShloMosaic Idealize.ShloMosaic.TcCoe Idealize.ShloMosaic.ValueIdx
open Cert.ReferenceIdeal Cert.ReferenceIdeal.Read Cert.QuantumFFN

/-! ### The index maps of the five contractions and the two broadcasts, at an index given by coordinates -/

theorem lidx_v0 (b : Fin 4) (s : Fin 2048) (f : Fin 4096) (k : Fin 1024) :
    lidx_main_v0 (ix3 b s f) k = ix3 b s k :=
  funext fun a => Fin.ext (by match a with | ⟨0, _⟩ => rfl | ⟨1, _⟩ => rfl | ⟨2, _⟩ => rfl)

theorem ridx_v0 (b : Fin 4) (s : Fin 2048) (f : Fin 4096) (k : Fin 1024) :
    ridx_main_v0 (ix3 b s f) k = ix2 f k :=
  funext fun a => Fin.ext (by match a with | ⟨0, _⟩ => rfl | ⟨1, _⟩ => rfl)

theorem lidx_v1 (b : Fin 4) (s : Fin 2048) (j : Fin 16) (k : Fin 4096) :
    lidx_main_v1 (ix3 b s j) k = ix3 b s k :=
  funext fun a => Fin.ext (by match a with | ⟨0, _⟩ => rfl | ⟨1, _⟩ => rfl | ⟨2, _⟩ => rfl)

theorem ridx_v1 (b : Fin 4) (s : Fin 2048) (j : Fin 16) (k : Fin 4096) :
    ridx_main_v1 (ix3 b s j) k = ix2 j k :=
  funext fun a => Fin.ext (by match a with | ⟨0, _⟩ => rfl | ⟨1, _⟩ => rfl)

theorem idx_v32 (b : Fin 4) (s : Fin 2048) (j : Fin 16) :
    idx_main_v2 (idx_main_v3 (ix3 b s j)) = ix1 j :=
  funext fun a => Fin.ext (by match a with | ⟨0, _⟩ => rfl)

theorem lidx_v6 (b : Fin 4) (s : Fin 2048) (f : Fin 4096) (k : Fin 16) :
    lidx_main_v6 (ix3 b s f) k = ix3 b s k :=
  funext fun a => Fin.ext (by match a with | ⟨0, _⟩ => rfl | ⟨1, _⟩ => rfl | ⟨2, _⟩ => rfl)

theorem ridx_v6 (b : Fin 4) (s : Fin 2048) (f : Fin 4096) (k : Fin 16) :
    ridx_main_v6 (ix3 b s f) k = ix2 f k :=
  funext fun a => Fin.ext (by match a with | ⟨0, _⟩ => rfl | ⟨1, _⟩ => rfl)

theorem lidx_v8 (b : Fin 4) (s : Fin 2048) (e : Fin 1024) (k : Fin 4096) :
    lidx_main_v8 (ix3 b s e) k = ix3 b s k :=
  funext fun a => Fin.ext (by match a with | ⟨0, _⟩ => rfl | ⟨1, _⟩ => rfl | ⟨2, _⟩ => rfl)

theorem ridx_v8 (b : Fin 4) (s : Fin 2048) (e : Fin 1024) (k : Fin 4096) :
    ridx_main_v8 (ix3 b s e) k = ix2 e k :=
  funext fun a => Fin.ext (by match a with | ⟨0, _⟩ => rfl | ⟨1, _⟩ => rfl)

/-! ### One lemma per stage -/

/-- The first contraction at (b, s, f) is `hidden` of row (b, s). -/
theorem hidden_apply (x0 : (⟨S4x2048x1024, .f32⟩ : BufTy).Contents (Elt Ideal)) (x1 : (⟨S4096x1024, .f32⟩ : BufTy).Contents (Elt Ideal))
    (b : Fin 4) (s : Fin 2048) (f : Fin 4096) :
    val_main_v0 (F := Ideal) x0 x1 (ix3 b s f)
      = Cert.QuantumFFN.hidden (fun e' => x0 (ix3 b s e')) (fun f e' => x1 (ix2 f e')) f := by
  rw [val_main_v0_apply]
  unfold Cert.QuantumFFN.hidden
  refine Finset.sum_congr rfl fun k _ => ?_
  rw [lidx_v0, ridx_v0]

/-- The second contraction at (b, s, j) is `angle` of row (b, s). -/
theorem angle_apply (x0 : (⟨S4x2048x1024, .f32⟩ : BufTy).Contents (Elt Ideal)) (x1 : (⟨S4096x1024, .f32⟩ : BufTy).Contents (Elt Ideal))
    (x2 : (⟨S16x4096, .f32⟩ : BufTy).Contents (Elt Ideal)) (b : Fin 4) (s : Fin 2048) (j : Fin 16) :
    val_main_v1 (F := Ideal) x0 x1 x2 (ix3 b s j)
      = angle (fun e' => x0 (ix3 b s e')) (fun f e' => x1 (ix2 f e')) (fun k f => x2 (ix2 k f)) j := by
  rw [val_main_v1_apply]
  unfold angle
  refine Finset.sum_congr rfl fun k _ => ?_
  rw [lidx_v1, ridx_v1, hidden_apply]

/-- The cosine stage at (b, s, j) is `expect` of row (b, s). -/
theorem expect_apply (x0 : (⟨S4x2048x1024, .f32⟩ : BufTy).Contents (Elt Ideal)) (x1 : (⟨S4096x1024, .f32⟩ : BufTy).Contents (Elt Ideal))
    (x2 : (⟨S16x4096, .f32⟩ : BufTy).Contents (Elt Ideal)) (x3 : (⟨S16, .f32⟩ : BufTy).Contents (Elt Ideal))
    (b : Fin 4) (s : Fin 2048) (j : Fin 16) :
    val_main_v5 (F := Ideal) x0 x1 x2 x3 (ix3 b s j)
      = expect (fun e' => x0 (ix3 b s e')) (fun f e' => x1 (ix2 f e')) (fun k f => x2 (ix2 k f)) (fun k => x3 (ix1 k)) j := by
  rw [val_main_v5_apply, val_main_v4_apply, val_main_v3_apply, val_main_v2_apply, idx_v32, angle_apply]
  rfl

/-- The rectified third contraction at (b, s, f) is `lifted` of row (b, s). -/
theorem lifted_apply (x0 : (⟨S4x2048x1024, .f32⟩ : BufTy).Contents (Elt Ideal)) (x1 : (⟨S4096x1024, .f32⟩ : BufTy).Contents (Elt Ideal))
    (x2 : (⟨S16x4096, .f32⟩ : BufTy).Contents (Elt Ideal)) (x3 : (⟨S16, .f32⟩ : BufTy).Contents (Elt Ideal))
    (x4 : (⟨S4096x16, .f32⟩ : BufTy).Contents (Elt Ideal)) (b : Fin 4) (s : Fin 2048) (f : Fin 4096) :
    val_main_v7 (F := Ideal) x0 x1 x2 x3 x4 (ix3 b s f)
      = lifted (fun e' => x0 (ix3 b s e')) (fun f e' => x1 (ix2 f e')) (fun k f => x2 (ix2 k f)) (fun k => x3 (ix1 k))
          (fun f k => x4 (ix2 f k)) f := by
  rw [val_main_v7_apply, val_main_call0_v0_apply, val_main_call0_cst_apply, val_main_v6_apply]
  unfold lifted
  have h : ∑ k : Fin 16, (val_main_v5 (F := Ideal) x0 x1 x2 x3) (lidx_main_v6 (ix3 b s f) k) * x4 (ridx_main_v6 (ix3 b s f) k)
      = ∑ k : Fin 16, expect (fun e' => x0 (ix3 b s e')) (fun f e' => x1 (ix2 f e')) (fun k f => x2 (ix2 k f))
          (fun k => x3 (ix1 k)) k * x4 (ix2 f k) := by
    refine Finset.sum_congr rfl fun k _ => ?_
    rw [lidx_v6, ridx_v6, expect_apply]
  rw [h]
  rfl

/-- The last contraction at (b, s, e) is `outRow` of row (b, s). -/
theorem result_apply (x0 : (⟨S4x2048x1024, .f32⟩ : BufTy).Contents (Elt Ideal)) (x1 : (⟨S4096x1024, .f32⟩ : BufTy).Contents (Elt Ideal))
    (x2 : (⟨S16x4096, .f32⟩ : BufTy).Contents (Elt Ideal)) (x3 : (⟨S16, .f32⟩ : BufTy).Contents (Elt Ideal))
    (x4 : (⟨S4096x16, .f32⟩ : BufTy).Contents (Elt Ideal)) (x5 : (⟨S1024x4096, .f32⟩ : BufTy).Contents (Elt Ideal))
    (b : Fin 4) (s : Fin 2048) (e : Fin 1024) :
    val_main_v8 (F := Ideal) x0 x1 x2 x3 x4 x5 (ix3 b s e)
      = outRow (fun e' => x0 (ix3 b s e')) (fun f e' => x1 (ix2 f e')) (fun k f => x2 (ix2 k f)) (fun k => x3 (ix1 k))
          (fun f k => x4 (ix2 f k)) (fun e' f => x5 (ix2 e' f)) e := by
  rw [val_main_v8_apply]
  unfold outRow
  refine Finset.sum_congr rfl fun k _ => ?_
  rw [lidx_v8, ridx_v8, lifted_apply]

end Cert.ReferenceIdeal.Row

end
-- ==== Proof.RefWhole.lean ====
/-
  The reference's result array is `whole` of its six arguments: row by row it is `outRow`.
-/
import proofs.«103433_j65481071396892_1_alg».proof.Proof.RefRow
import proofs.«103433_j65481071396892_1_alg».proof.Proof.SpecWhole

noncomputable section

namespace Cert.ReferenceIdeal.Row

open Idealize.ShloMosaic Idealize.ShloMosaic.TcCoe Idealize.ShloMosaic.ValueIdx
open Cert.ReferenceIdeal Cert.ReferenceIdeal.Read Cert.QuantumFFN

/-- The last stage of the reference, as an array: every entry (b, s, e) is the row function of row (b, s). -/
theorem result_eq (x0 : (⟨S4x2048x1024, .f32⟩ : BufTy).Contents (Elt Ideal)) (x1 : (⟨S4096x1024, .f32⟩ : BufTy).Contents (Elt Ideal))
    (x2 : (⟨S16x4096, .f32⟩ : BufTy).Contents (Elt Ideal)) (x3 : (⟨S16, .f32⟩ : BufTy).Contents (Elt Ideal))
    (x4 : (⟨S4096x16, .f32⟩ : BufTy).Contents (Elt Ideal)) (x5 : (⟨S1024x4096, .f32⟩ : BufTy).Contents (Elt Ideal)) :
    val_main_v8 (F := Ideal) x0 x1 x2 x3 x4 x5 = whole x0 x1 x2 x3 x4 x5 := by
  funext i
  obtain ⟨b, s, e, rfl⟩ : ∃ (b : Fin 4) (s : Fin 2048) (e : Fin 1024), i = ix3 b s e := ⟨i 0, i 1, i 2, eq_ix3 i⟩
  exact result_apply x0 x1 x2 x3 x4 x5 b s e

end Cert.ReferenceIdeal.Row

end
-- ==== Proof.lean ====
/-
  The feed-forward layer with a cosine "quantum" nonlinearity, kernel against reference, over the extended reals.

  Both programs compute, for every row (b, s) of x[4, 2048, 1024],
      out(b, s, ·) = relu(cos(x(b, s, ·) · W1ᵀ · Wqᵀ + θ) · W2ᵀ) · Woᵀ,
  four matrix products, each contracting the weight's second axis, with a cosine and a maximum with zero between them
  (Proof/Spec.lean `outRow`, Proof/SpecWhole.lean `whole`). The reference writes them as four `dot_general`s over the
  rank-3 array; the kernel flattens x to 8192 rows, hands 256 rows at a time to a body that forms the same four products
  with the weights resident, and reshapes back. At the ideal values a change of float format is the identity, a product
  into a zero accumulator is the plain sum, and both cosines are the one function on the extended reals, so the two sides
  are the SAME nested sums term by term: no sum is regrouped and no law of arithmetic is used, hence the inputs'
  finiteness is never opened.

  The kernel side: a tile's stored value at (p, e) is `outRow` of row p of its x block (Proof/KernelTile.lean); the
  tile of point t is rows 256·t … 256·t + 255 of one whole-array function, the 32 tiles cover the 8192 rows, and the
  reshapes before and after the call only renumber rows, r = 2048·b + s (Proof/KernelArray.lean). The reference side:
  its last stage at (b, s, e) is `outRow` of row (b, s) (Proof/RefRow.lean, Proof/RefWhole.lean).
-/
import proofs.«103433_j65481071396892_1_alg».proof.Defs
import proofs.«103433_j65481071396892_1_alg».proof.Proof.Gen.Kernel
import proofs.«103433_j65481071396892_1_alg».proof.Proof.Gen.Kernel.Skeleton
import proofs.«103433_j65481071396892_1_alg».proof.Proof.Gen.Kernel.Launch
import proofs.«103433_j65481071396892_1_alg».proof.Proof.Gen.Kernel.Points
import proofs.«103433_j65481071396892_1_alg».proof.Proof.Gen.Kernel.Frame
import proofs.«103433_j65481071396892_1_alg».proof.Proof.Gen.KernelIdeal
import proofs.«103433_j65481071396892_1_alg».proof.Proof.Gen.KernelIdeal.Skeleton
import proofs.«103433_j65481071396892_1_alg».proof.Proof.Gen.KernelIdeal.Launch
import proofs.«103433_j65481071396892_1_alg».proof.Proof.Gen.KernelIdeal.Points
import proofs.«103433_j65481071396892_1_alg».proof.Proof.Gen.KernelIdeal.Frame
import proofs.«103433_j65481071396892_1_alg».proof.Proof.Gen.ReferenceIdeal
import proofs.«103433_j65481071396892_1_alg».proof.Proof.Gen.Pre_finite_inputs
import proofs.«103433_j65481071396892_1_alg».proof.Proof.Gen.ReferenceIdeal.Run
import proofs.«103433_j65481071396892_1_alg».proof.Proof.Gen.ReferenceIdeal.Read
import proofs.«103433_j65481071396892_1_alg».proof.Proof.KernelArray
import proofs.«103433_j65481071396892_1_alg».proof.Proof.RefWhole
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the result array at `whole` of the
    arguments: the kernel by its tiles, the reference by its rows. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v8_eq, Cert.ReferenceIdeal.Row.result_eq, h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
